-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x800000 : Shape := ⟨2, ![2, 800000]⟩
abbrev S800000x1 : Shape := ⟨2, ![800000, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S800000x1 : S_.BroadcastsInDim S800000x1 (![] : Fin 0 → Fin S800000x1.rank)
  reducesTo_S800000x1_S_d0_1 : S800000x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg4 : FVec F S1 .f32) (main_arg5 : IVec S2x800000 32) (main_arg6 : FVec F S800000x1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S800000x1 .f32 := Host.absf main_arg6
  let main_cst_8 : FVec F S_ .f32 := constant S_ .f32 0x7F800000#32
  let main_v25 : FVec F S800000x1 .f32 := broadcastInDim S800000x1 ![] bcast_S_S800000x1 main_cst_8
  let main_v26 : IVec S800000x1 1 := cmpf .olt main_v24 main_v25
  let main_c_9 : IVec S_ 1 := constantI S_ 1 1#1
  let main_v27 : IVec S_ 1 := (fun x v => Host.reduce IntOp.andi x v reducesTo_S800000x1_S_d0_1 h_S_) main_v26 main_c_9
  let main_v28 : IVec S_ 1 := andi main_v23 main_v27
  let main_c_10 : IVec S_ 32 := constantI S_ 32 4294917296#32
  let main_v29 : IVec S2x800000 32 := broadcastInDim S2x800000 ![] bcast_S_S2x800000 main_c_10
  let main_v30 : IVec S2x800000 1 := cmpi .sge main_arg5 main_v29
  let main_c_11 : IVec S_ 32 := constantI S_ 32 50000#32
  let main_v31 : IVec S2x800000 32 := broadcastInDim S2x800000 ![] bcast_S_S2x800000 main_c_11
  let main_v32 : IVec S2x800000 1 := cmpi .slt main_arg5 main_v31
  let main_v33 : IVec S2x800000 1 := andi main_v30 main_v32
  fn_part2 (F := F) main_v28 main_v33

def fn {F : FTy → Type} [FloatOps F] (main_arg0 : FVec F S50000x128 .f32) (main_arg1 : FVec F S256x64 .f32) (main_arg2 : FVec F S64 .f32) (main_arg3 : FVec F S64x1 .f32) (main_arg4 : FVec F S1 .f32) (main_arg5 : IVec S2x800000 32) (main_arg6 : FVec F S800000x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_v13 main_v16
-- ==== Kernel.lean ====
abbrev S50000x128 : Shape := ⟨2, ![50000, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x800000 : Shape := ⟨2, ![2, 800000]⟩
abbrev S800000x1 : Shape := ⟨2, ![800000, 1]⟩
abbrev S1x800000 : Shape := ⟨2, ![1, 800000]⟩
abbrev S800000 : Shape := ⟨1, ![800000]⟩
abbrev S_ : Shape := ⟨0, ![]⟩
abbrev S1x1 : Shape := ⟨2, ![1, 1]⟩
abbrev S800000x128 : Shape := ⟨2, ![800000, 128]⟩
abbrev S128x64 : Shape := ⟨2, ![128, 64]⟩
abbrev S1x64 : Shape := ⟨2, ![1, 64]⟩
abbrev S3200x128 : Shape := ⟨2, ![3200, 128]⟩
abbrev S3200x1 : Shape := ⟨2, ![3200, 1]⟩
abbrev S3200x64 : Shape := ⟨2, ![3200, 64]⟩

abbrev nBuf : Space → Nat
  | .hbm => 63
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x800000, .i32⟩
  | .hbm, ⟨6, _⟩ => ⟨S800000x1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x128, .f32⟩
  | .hbm, ⟨30, _⟩ => ⟨S800000x128, .i1⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000x128, .f32⟩
  | .hbm, ⟨53, _⟩ => ⟨S800000x128, .i1⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S128x64, .f32⟩
  | .hbm, ⟨58, _⟩ => ⟨S128x64, .f32⟩
  | .hbm, ⟨59, _⟩ => ⟨S1x64, .f32⟩
  | .hbm, ⟨60, _⟩ => ⟨S1x1, .f32⟩
  | .hbm, ⟨61, _⟩ => ⟨S800000x1, .f32⟩
  | .hbm, ⟨62, _⟩ => ⟨S800000, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S3200x1, .f32⟩
  | .local _ .vmem, ⟨10, _⟩ => ⟨S3200x1, .f32⟩
  | .local _ .vmem, ⟨11, _⟩ => ⟨S3200x1, .f32⟩
  | .local _ .vmem, ⟨12, _⟩ => ⟨S3200x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3200x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x64_S128x64_0_0 : S256x64.Slices ![0, 0] S128x64
  slices_S256x64_S128x64_128_0 : S256x64.Slices ![128, 0] S128x64
  shapeCasts_S64_S1x64 : S64.ShapeCasts S1x64
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  dot_S3200x128_S128x64_S3200x64_1_0_0_1_n_n_wf : DotDims.WF S3200x128 S128x64 S3200x64 [1] [0] [0] [1] [] []
  dot_S3200x64_S64x1_S3200x1_1_0_0_1_n_n_wf : DotDims.WF S3200x64 S64x1 S3200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x1.size a ≤ S800000x1.size a
  hwx0_7 : ∀ i : grid0.Coords, EltTy.bits .f32 = 32 ∨ (Rect.block (s := S800000x1) S3200x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x1.size a ≤ S800000x1.size a
  hwx0_8 : ∀ i : grid0.Coords, EltTy.bits .f32 = 32 ∨ (Rect.block (s := S800000x1) S3200x1.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S3200x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S3200x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x800000 : Shape := ⟨2, ![2, 800000]⟩
abbrev S800000x1 : Shape := ⟨2, ![800000, 1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S800000x256 : Shape := ⟨2, ![800000, 256]⟩
abbrev S800000x64 : Shape := ⟨2, ![800000, 64]⟩
abbrev S1x64 : Shape := ⟨2, ![1, 64]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x800000, .i32⟩
  | .hbm, ⟨6, _⟩ => ⟨S800000x1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x256, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x1, .f32⟩
  | .hbm, ⟨38, _⟩ => ⟨S1x1, .f32⟩
  | .hbm, ⟨39, _⟩ => ⟨S800000x1, .f32⟩
  | .hbm, ⟨40, _⟩ => ⟨S800000x1, .f32⟩
  | .hbm, ⟨41, _⟩ => ⟨S_, .f32⟩
  | .hbm, ⟨42, _⟩ => ⟨S800000x1, .f32⟩
  | .hbm, ⟨43, _⟩ => ⟨S800000x1, .f32⟩
  | .hbm, ⟨44, _⟩ => ⟨S_, .f32⟩
  | .hbm, ⟨45, _⟩ => ⟨S800000x1, .f32⟩
  | .hbm, ⟨46, _⟩ => ⟨S800000x1, .f32⟩
  | .hbm, ⟨47, _⟩ => ⟨S800000x1, .f32⟩
  | .hbm, ⟨48, _⟩ => ⟨S800000x1, .f32⟩
  | .hbm, ⟨49, _⟩ => ⟨S800000x1, .f32⟩
  | .hbm, ⟨50, _⟩ => ⟨S800000x1, .f32⟩
  | .hbm, ⟨51, _⟩ => ⟨S800000x1, .f32⟩
  | .hbm, ⟨52, _⟩ => ⟨S_, .f32⟩
  | .hbm, ⟨53, _⟩ => ⟨S800000x1, .f32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S_, .f32⟩
  | .hbm, ⟨58, _⟩ => ⟨S800000x1, .f32⟩
  | .hbm, ⟨59, _⟩ => ⟨S800000x1, .f32⟩
  | .hbm, ⟨60, _⟩ => ⟨S_, .f32⟩
  | .hbm, ⟨61, _⟩ => ⟨S800000x1, .f32⟩
  | .hbm, ⟨62, _⟩ => ⟨S800000x1, .f32⟩
  | .hbm, ⟨63, _⟩ => ⟨S800000, .f32⟩
  | .hbm, ⟨64, _⟩ => ⟨S_, .f32⟩
  | .hbm, ⟨65, _⟩ => ⟨S800000, .f32⟩
  | .hbm, ⟨66, _⟩ => ⟨S800000, .i1⟩
  | .hbm, ⟨67, _⟩ => ⟨S_, .f32⟩
  | .hbm, ⟨68, _⟩ => ⟨S800000, .f32⟩
  | .hbm, ⟨69, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  dot_S800000x256_S256x64_S800000x64_1_0_0_1_n_n_wf : DotDims.WF S800000x256 S256x64 S800000x64 [1] [0] [0] [1] [] []
  dot_S800000x64_S64x1_S800000x1_1_0_0_1_n_n_wf : DotDims.WF S800000x64 S64x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.IndexRange.lean ====
import proofs.«405550_j89292370084347_1_alg».proof.Pre_finite_inputs
import Idealize.ShloMosaic.Lib.ReduceAll
import Idealize.ShloMosaic.Lib.WordArith

/-!
  The range of the edge indices.

  The precondition ends in a conjunct saying that every entry `w` of the `int32[2, 800000]` index array
  satisfies `-50000 ≤ w < 50000` (read signed). `range_of_pre` reads that conjunct back as inequalities
  on `toInt`. `wrapped_in_range`: an index in that range, wrapped by adding `50000` when negative, lies in
  `0 … 49999`, so the test of the wrapped index against those two bounds is the word `1`.
-/

namespace Cert.IndexRange

open Idealize.ShloMosaic

/-- The rank-0 shape has one index. -/
instance : Subsingleton Cert.Pre_finite_inputs.S_.Idx := ⟨fun _ _ => funext fun d => d.elim0⟩

/-- The literal the lower bound is printed as reads signed as `-50000`. -/
theorem toInt_lower : (4294917296#32 : BitVec 32).toInt = -50000 := by decide

/-- The literal of the upper bound, and of the wrap, reads signed as `50000`. -/
theorem toInt_upper : (50000#32 : BitVec 32).toInt = 50000 := by decide

/-- The precondition's last conjunct, read back: every edge index lies in `-50000 ≤ · < 50000`. -/
theorem range_of_pre {F : FTy → Type} [FloatOps F] [Cert.Pre_finite_inputs.Facts]
    (a0 : FVec F Cert.Pre_finite_inputs.S50000x128 .f32) (a1 : FVec F Cert.Pre_finite_inputs.S256x64 .f32) (a2 : FVec F Cert.Pre_finite_inputs.S64 .f32) (a3 : FVec F Cert.Pre_finite_inputs.S64x1 .f32) (a4 : FVec F Cert.Pre_finite_inputs.S1 .f32) (a5 : IVec Cert.Pre_finite_inputs.S2x800000 32) (a6 : FVec F Cert.Pre_finite_inputs.S800000x1 .f32)
    (h : Cert.Pre_finite_inputs.fn (F := F) a0 a1 a2 a3 a4 a5 a6 = fun _ => 1#1) :
    ∀ i : Cert.Pre_finite_inputs.S2x800000.Idx, -50000 ≤ (a5 i).toInt ∧ (a5 i).toInt < 50000 := by
  intro i
  have h0 := congrFun h (fun d => d.elim0)
  dsimp only [Cert.Pre_finite_inputs.fn, Cert.Pre_finite_inputs.fn_part1, Cert.Pre_finite_inputs.fn_part2] at h0
  -- only the last conjunct matters: the reduction by `and` of the two compares over both axes
  have h1 : Host.reduce IntOp.andi _ _ _ _ _ = 1#1 := (IntOp.andi_eq_one.1 h0).2
  -- every element of the reduced array is 1: both compares hold at `i`
  have h2 := Host.reduce_andi_all _ _ _ _ _ h1 i
  obtain ⟨hge, hlt⟩ := IntOp.andi_eq_one.1 h2
  -- a broadcast scalar is that scalar at every index
  have hge' : IntOp.cmpi .sge (a5 i) 4294917296#32 = 1#1 := hge
  have hlt' : IntOp.cmpi .slt (a5 i) 50000#32 = 1#1 := hlt
  have hlo := IntOp.cmpi_sge.1 hge'
  have hhi := IntOp.cmpi_slt.1 hlt'
  rw [toInt_lower] at hlo
  rw [toInt_upper] at hhi
  exact ⟨hlo, hhi⟩

/-- An index in `-50000 ≤ · < 50000`, wrapped by adding `50000` when negative, tests inside `0 … 49999`. -/
theorem wrapped_in_range (w : BitVec 32) (h : -50000 ≤ w.toInt ∧ w.toInt < 50000) :
    IntOp.andi (IntOp.cmpi .sge (Scalar.select (IntOp.cmpi .slt w 0#32) (IntOp.addi w 50000#32) w) 0#32)
               (IntOp.cmpi .sle (Scalar.select (IntOp.cmpi .slt w 0#32) (IntOp.addi w 50000#32) w) 49999#32) = 1#1 := by
  obtain ⟨hlo, hhi⟩ := h
  have h0 : (0#32 : BitVec 32).toInt = 0 := by decide
  have h49 : (49999#32 : BitVec 32).toInt = 49999 := by decide
  rw [IntOp.andi_eq_one, IntOp.cmpi_sge, IntOp.cmpi_sle, h0, h49]
  by_cases hneg : w.toInt < 0
  · have hc : IntOp.cmpi .slt w 0#32 = 1#1 := IntOp.cmpi_slt.2 (by rw [h0]; exact hneg)
    have hs : Scalar.select (IntOp.cmpi .slt w 0#32) (IntOp.addi w 50000#32) w = w + 50000#32 := by
      rw [hc]; rfl
    rw [hs, WordArith.toInt_add_of_bounds w 50000#32 (by rw [toInt_upper]; omega) (by rw [toInt_upper]; omega), toInt_upper]
    omega
  · have hc : ¬ IntOp.cmpi .slt w 0#32 = 1#1 := fun hc => hneg (by have := IntOp.cmpi_slt.1 hc; rwa [h0] at this)
    have hs : Scalar.select (IntOp.cmpi .slt w 0#32) (IntOp.addi w 50000#32) w = w := by
      unfold Scalar.select; exact if_neg hc
    rw [hs]
    omega

end Cert.IndexRange
-- ==== Proof.HostPrefix.lean ====
/-
  What the region finds in its windows' arrays: the host operations before the pallas_call, read back.

  The two halves of the first layer are the upper and the lower 128 rows of the weight matrix; the bias row and
  the second bias are the given vectors with a unit axis in front. Each gathered row array is a row gather of
  the node table at the WRAPPED index column (a negative index has the table's extent added), guarded: where
  the wrapped index is outside `0 … 49999` the row is replaced by a fill value. When every index lies in
  `-50000 ≤ · < 50000` the wrapped index is always inside, the guard is everywhere true, and the gathered
  array is the plain gather.
-/
import proofs.«405550_j89292370084347_1_alg».proof.Proof.Gen.KernelIdeal.Frame
import proofs.«405550_j89292370084347_1_alg».proof.Proof.IndexRange
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll

set_option maxRecDepth 16384

noncomputable section

open Idealize.ShloMosaic Idealize.ShloMosaic.TcCoe Idealize.SL.Sem Idealize.ShloMosaic.StableHlo

namespace Cert.KernelIdeal.Prefix

open Cert.KernelIdeal Cert.KernelIdeal.Gen Idealize.ShloMosaic.ValueIdx

variable (m : (ℓ : Loc nD τ sig) → Buf (Elt Ideal) ℓ)

/-- Row `r` (0 or 1) of the edge-index array as a vector of 800000 words. -/
def endpoint0 (a5 : IVec S2x800000 32) : IVec S800000 32 :=
  shapeCast S800000 (extractStridedSlice S1x800000 ![0, 0] a5 slices_S2x800000_S1x800000_0_0) shapeCasts_S1x800000_S800000
def endpoint1 (a5 : IVec S2x800000 32) : IVec S800000 32 :=
  shapeCast S800000 (extractStridedSlice S1x800000 ![1, 0] a5 slices_S2x800000_S1x800000_1_0) shapeCasts_S1x800000_S800000

/-- The wrapped index column: a negative index has 50000 added. -/
def wrapped (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The guard: the wrapped index is inside `0 … 49999`, as a column, then reduced over its one column. -/
def guard (idx : IVec S800000 32) : IVec S800000 1 :=
  Host.reduce IntOp.andi
    (andi (cmpi .sge (wrapped idx) (broadcastInDim S800000x1 ![] bcast_S_S800000x1 (constantI S_ 32 0#32)))
      (cmpi .sle (wrapped idx) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The plain row gather of the node table at the wrapped indices. -/
def rows (a0 : FVec Ideal S50000x128 .f32) (idx : IVec S800000 32) : FVec Ideal S800000x128 .f32 :=
  Host.gather gather_S50000x128_S800000x1_S800000x128_1_0_n_n_0_1_1128 a0 (wrapped idx)

/-- The guarded gather the program computes. -/
def guardedRows (a0 : FVec Ideal S50000x128 .f32) (idx : IVec S800000 32) : FVec Ideal S800000x128 .f32 :=
  select (broadcastInDim S800000x128 ![0] bcast_S800000_S800000x128_0 (guard idx)) (rows a0 idx)
    (broadcastInDim S800000x128 ![] bcast_S_S800000x128 (constant (F := Ideal) S_ .f32 0x7FC00000#32))

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) 1#1 = 1#1 := by decide
    rw [List.foldl_cons, h a List.mem_cons_self, e]
    exact foldl_andi_one f l fun n hn => h n (List.mem_cons_of_mem _ hn)

/-- Row 0 of the edge-index array, read at an index. -/
theorem endpoint0_apply (a5 : IVec S2x800000 32) (i : Fin 800000) :
    endpoint0 a5 (ix1 i) = a5 (ix2 (0 : Fin 2) i) := by
  unfold endpoint0
  rw [shapeCast_1a_a_apply, slice2_axis0_apply 0 a5 _ (0 : Fin 1) i (0 : Fin 2) rfl]

/-- Row 1 of the edge-index array, read at an index. -/
theorem endpoint1_apply (a5 : IVec S2x800000 32) (i : Fin 800000) :
    endpoint1 a5 (ix1 i) = a5 (ix2 (1 : Fin 2) i) := by
  unfold endpoint1
  rw [shapeCast_1a_a_apply, slice2_axis0_apply 1 a5 _ (0 : Fin 1) i (1 : Fin 2) rfl]

/-- With every index in `-50000 ≤ · < 50000` the guard is 1 at every position. -/
theorem guard_eq_one (idx : IVec S800000 32)
    (h : ∀ e : S800000.Idx, -50000 ≤ (idx e).toInt ∧ (idx e).toInt < 50000) (e : S800000.Idx) :
    guard idx e = 1#1 := by
  unfold guard
  rw [Host.reduce_eq_foldl]
  refine foldl_andi_one _ _ fun i _ => ?_
  exact Cert.IndexRange.wrapped_in_range (idx _) (h _)

/-- Operations run one stretch after another: the contents after the first stretch are what the second starts from. -/
theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => simp only [List.cons_append, StableHlo.after_cons, ih]

/-- Contents moved to a typed reference's buffer type and back are the contents. -/
theorem ofBuf_toBuf {T : BufTy} (x : StableHlo.TRef sig T) (v : T.Contents (Elt Ideal)) : x.ofBuf (x.toBuf v) = v := by
  obtain ⟨r, h, a, b⟩ := x
  subst h
  rfl

/-- At a literal reference the move between the buffer's type and the value's type is the identity. -/
theorem ofBuf_v1 (v : (Proc.devRef (τ := τ) .tc main_v1).ty.Contents (Elt Ideal)) :
    (StableHlo.TRef.of main_v1 : StableHlo.TRef sig ⟨S800000, .i32⟩).ofBuf v = v := rfl
theorem ofBuf_v3 (v : (Proc.devRef (τ := τ) .tc main_v3).ty.Contents (Elt Ideal)) :
    (StableHlo.TRef.of main_v3 : StableHlo.TRef sig ⟨S800000, .i32⟩).ofBuf v = v := rfl
theorem ofBuf_arg0 (v : (Proc.devRef (τ := τ) .tc main_arg0).ty.Contents (Elt Ideal)) :
    (StableHlo.TRef.of main_arg0 : StableHlo.TRef sig ⟨S50000x128, .f32⟩).ofBuf v = v := rfl
theorem toBuf_v4 (v : FVec Ideal S800000x128 .f32) :
    (StableHlo.TRef.of main_v4 : StableHlo.TRef sig ⟨S800000x128, .f32⟩).toBuf (Val := Elt Ideal) v = v := rfl
theorem toBuf_v5 (v : FVec Ideal S800000x128 .f32) :
    (StableHlo.TRef.of main_v5 : StableHlo.TRef sig ⟨S800000x128, .f32⟩).toBuf (Val := Elt Ideal) v = v := rfl

/-- A reference that no operation of a stretch writes keeps its contents through the stretch. -/
macro "keeps_ref" : tactic =>
  `(tactic| (refine StableHlo.after_of_forall_not_mem _ _ (List.forall_iff_forall_mem.mp ?_)
             simp only [List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ### The four stretches, each from arbitrary contents `X` -/

/-- The first stretch leaves the two rows of the edge-index array as vectors. -/
theorem s0_v1 (X : Valuation τ sig (Elt Ideal)) :
    StableHlo.after hostOps0 X (Proc.devRef .tc main_v1) = endpoint0 (X (Proc.devRef .tc main_arg5)) := by
  after_results
  rfl
theorem s0_v3 (X : Valuation τ sig (Elt Ideal)) :
    StableHlo.after hostOps0 X (Proc.devRef .tc main_v3) = endpoint1 (X (Proc.devRef .tc main_arg5)) := by
  after_results
  rfl
theorem s0_arg0 (X : Valuation τ sig (Elt Ideal)) :
    StableHlo.after hostOps0 X (Proc.devRef .tc main_arg0) = X (Proc.devRef .tc main_arg0) := by keeps_ref

/-- The second stretch is the guarded gather of the node table at the first vector. -/
theorem s1_v4 (X : Valuation τ sig (Elt Ideal)) :
    StableHlo.after hostOps0_1 X (Proc.devRef .tc main_v4)
      = guardedRows (X (Proc.devRef .tc main_arg0)) (X (Proc.devRef .tc main_v1)) := by
  after_results_simp
  simp only [ofBuf_toBuf, ofBuf_v1, ofBuf_arg0, toBuf_v4]
  unfold guardedRows guard rows wrapped
  with_reducible rfl
theorem s1_arg0 (X : Valuation τ sig (Elt Ideal)) :
    StableHlo.after hostOps0_1 X (Proc.devRef .tc main_arg0) = X (Proc.devRef .tc main_arg0) := by keeps_ref
theorem s1_v3 (X : Valuation τ sig (Elt Ideal)) :
    StableHlo.after hostOps0_1 X (Proc.devRef .tc main_v3) = X (Proc.devRef .tc main_v3) := by keeps_ref

/-- The third stretch is the guarded gather of the node table at the second vector. -/
theorem s2_v5 (X : Valuation τ sig (Elt Ideal)) :
    StableHlo.after hostOps0_2 X (Proc.devRef .tc main_v5)
      = guardedRows (X (Proc.devRef .tc main_arg0)) (X (Proc.devRef .tc main_v3)) := by
  after_results_simp
  simp only [ofBuf_toBuf, ofBuf_v3, ofBuf_arg0, toBuf_v5]
  unfold guardedRows guard rows wrapped
  with_reducible rfl
theorem s2_v4 (X : Valuation τ sig (Elt Ideal)) :
    StableHlo.after hostOps0_2 X (Proc.devRef .tc main_v4) = X (Proc.devRef .tc main_v4) := by keeps_ref

/-- The fourth stretch writes neither gathered array. -/
theorem s3_v4 (X : Valuation τ sig (Elt Ideal)) :
    StableHlo.after hostOps0_3 X (Proc.devRef .tc main_v4) = X (Proc.devRef .tc main_v4) := by keeps_ref
theorem s3_v5 (X : Valuation τ sig (Elt Ideal)) :
    StableHlo.after hostOps0_3 X (Proc.devRef .tc main_v5) = X (Proc.devRef .tc main_v5) := by keeps_ref

theorem V_upper (c : Dev nD) :
    V m c main_v6 = extractStridedSlice S128x64 ![0, 0] (m ((c : Thread nD τ).loc main_arg1)) slices_S256x64_S128x64_0_0 := by
  dsimp only [V, V0]
  simp only [hostOps0, hostOps0_1, hostOps0_2, hostOps0_3, List.flatten_cons, List.flatten_nil, List.append_nil, List.cons_append, List.nil_append]
  after_results

theorem V_lower (c : Dev nD) :
    V m c main_v7 = extractStridedSlice S128x64 ![128, 0] (m ((c : Thread nD τ).loc main_arg1)) slices_S256x64_S128x64_128_0 := by
  dsimp only [V, V0]
  simp only [hostOps0, hostOps0_1, hostOps0_2, hostOps0_3, List.flatten_cons, List.flatten_nil, List.append_nil, List.cons_append, List.nil_append]
  after_results

theorem V_bias (c : Dev nD) :
    V m c main_v8 = shapeCast S1x64 (m ((c : Thread nD τ).loc main_arg2)) shapeCasts_S64_S1x64 := by
  dsimp only [V, V0]
  simp only [hostOps0, hostOps0_1, hostOps0_2, hostOps0_3, List.flatten_cons, List.flatten_nil, List.append_nil, List.cons_append, List.nil_append]
  after_results
  try rfl

theorem V_bias2 (c : Dev nD) :
    V m c main_v9 = shapeCast S1x1 (m ((c : Thread nD τ).loc main_arg4)) shapeCasts_S1_S1x1 := by
  dsimp only [V, V0]
  simp only [hostOps0, hostOps0_1, hostOps0_2, hostOps0_3, List.flatten_cons, List.flatten_nil, List.append_nil, List.cons_append, List.nil_append]
  after_results
  try rfl

/-- The source rows' window array is the guarded gather at row 0 of the edge-index array. -/
theorem V_src (c : Dev nD) :
    V m c main_v4 = guardedRows (m ((c : Thread nD τ).loc main_arg0)) (endpoint0 (m ((c : Thread nD τ).loc main_arg5))) := by
  dsimp only [V, V0]
  simp only [List.flatten_cons, List.flatten_nil, List.append_nil]
  rw [after_append, after_append, after_append, s3_v4, s2_v4, s1_v4, s0_arg0, s0_v1]

/-- The destination rows' window array is the guarded gather at row 1 of the edge-index array. -/
theorem V_dst (c : Dev nD) :
    V m c main_v5 = guardedRows (m ((c : Thread nD τ).loc main_arg0)) (endpoint1 (m ((c : Thread nD τ).loc main_arg5))) := by
  dsimp only [V, V0]
  simp only [List.flatten_cons, List.flatten_nil, List.append_nil]
  rw [after_append, after_append, after_append, s3_v5, s2_v5, s1_arg0, s1_v3, s0_arg0, s0_v3]

/-- Each row of the edge-index array inherits the array's range. -/
theorem endpoint0_range (a5 : IVec S2x800000 32) (h : ∀ i : S2x800000.Idx, -50000 ≤ (a5 i).toInt ∧ (a5 i).toInt < 50000)
    (e : S800000.Idx) : -50000 ≤ (endpoint0 a5 e).toInt ∧ (endpoint0 a5 e).toInt < 50000 := by
  obtain ⟨i, rfl⟩ : ∃ i : Fin 800000, e = ix1 i := ⟨e 0, eq_ix1 e⟩
  rw [endpoint0_apply]
  exact h _

theorem endpoint1_range (a5 : IVec S2x800000 32) (h : ∀ i : S2x800000.Idx, -50000 ≤ (a5 i).toInt ∧ (a5 i).toInt < 50000)
    (e : S800000.Idx) : -50000 ≤ (endpoint1 a5 e).toInt ∧ (endpoint1 a5 e).toInt < 50000 := by
  obtain ⟨i, rfl⟩ : ∃ i : Fin 800000, e = ix1 i := ⟨e 0, eq_ix1 e⟩
  rw [endpoint1_apply]
  exact h _

/-- When every index lies in `-50000 ≤ · < 50000` the guard is true everywhere and the guarded gather is the plain one. -/
theorem guardedRows_eq (a0 : FVec Ideal S50000x128 .f32) (idx : IVec S800000 32)
    (h : ∀ e : S800000.Idx, -50000 ≤ (idx e).toInt ∧ (idx e).toInt < 50000) :
    guardedRows a0 idx = rows a0 idx := by
  funext j
  unfold guardedRows
  have hg : broadcastInDim S800000x128 ![0] bcast_S800000_S800000x128_0 (guard idx) j = 1#1 :=
    guard_eq_one idx h _
  rw [select_apply, hg, select_one]

end Cert.KernelIdeal.Prefix

end
-- ==== Proof.EdgeGate.lean ====
/-
  The value both programs compute, for one edge and for the whole edge list, over the extended reals.

  An edge with endpoint rows `s`, `d` (128 features each) is scored by a two-layer perceptron on the
  concatenated row `[s, d]`: the first layer's weight matrix has 256 rows, and the product of `[s, d]`
  with it is the product of `s` with its upper 128 rows plus the product of `d` with its lower 128 rows.
  The hidden units pass through `max · 0`, the second layer gives the logit `l`, and the gate is

      σ((log ε − log1p(−ε) + l) / 2),   ε = c₁ · u + c₂,   σ x = 1 / (1 + e^(−x)),

  with `u` the edge's uniform draw and `c₁`, `c₂` the two binary32 constants both programs carry
  (the same words on both sides, so they are never evaluated). The result is finally clipped below at zero
  by a comparison and a choice, which both programs also spell out.
-/
import Idealize.ShloMosaic.PureOps.Ideal
import Idealize.ShloMosaic.PureOps.Ideal.Laws
import Idealize.ShloMosaic.Lib.ValueIdx

noncomputable section

namespace Cert.EdgeGate

open Idealize.ShloMosaic Idealize.ShloMosaic.ValueIdx

/-- Hidden unit `j` before the rectifier: the source row against the upper half of the first layer,
    the destination row against the lower half, and the bias. -/
def hiddenPre (s d : Fin 128 → EReal) (Ws Wd : Fin 128 → Fin 64 → EReal) (b1 : Fin 64 → EReal) (j : Fin 64) : EReal :=
  ((∑ k : Fin 128, s k * Ws k j) + ∑ k : Fin 128, d k * Wd k j) + b1 j

/-- The edge's logit: the rectified hidden units against the second layer, and its bias. -/
def logit (s d : Fin 128 → EReal) (Ws Wd : Fin 128 → Fin 64 → EReal) (b1 W2 : Fin 64 → EReal) (b2 : EReal) : EReal :=
  (∑ j : Fin 64, max (hiddenPre s d Ws Wd b1 j) 0 * W2 j) + b2

/-- The noise variable `ε = c₁ · u + c₂` (the two constants as their binary32 words). -/
def noise (u : EReal) : EReal :=
  Ideal.ofBits .f32 0xBF7FF2E5#32 * u + Ideal.ofBits .f32 0x3F7FF972#32

/-- The logistic of half of `log ε − log1p(−ε) + l`. -/
def squashed (l u : EReal) : EReal :=
  Ideal.logistic (Ideal.div ((Ideal.log (noise u) - Ideal.log1p (-(noise u))) + l) (Ideal.ofBits .f32 0x40000000#32))

/-- The gate: the squashed value, replaced by zero where it compares below zero. -/
def gate (l u : EReal) : EReal :=
  Scalar.select (Ideal.cmp .olt (squashed l u) (Ideal.ofBits .f32 0x00000000#32))
    (Ideal.ofBits .f32 0x00000000#32) (squashed l u)

/-- One edge's mask value from its two endpoint rows, the parameters and its uniform draw. -/
def edgeMask (s d : Fin 128 → EReal) (Ws Wd : Fin 128 → Fin 64 → EReal) (b1 W2 : Fin 64 → EReal) (b2 u : EReal) : EReal :=
  gate (logit s d Ws Wd b1 W2 b2) u

/-- Row `k` of the upper half of a 256-row matrix. -/
abbrev upper (k : Fin 128) : Fin 256 := ⟨k.val, by have := k.isLt; omega⟩
/-- Row `k` of the lower half of a 256-row matrix. -/
abbrev lower (k : Fin 128) : Fin 256 := ⟨128 + k.val, by have := k.isLt; omega⟩

/-- The whole mask, one entry per edge, from the gathered source rows `S`, the gathered destination rows `D`,
    the parameters as the arrays the programs are given, and the uniform draws. -/
def maskArray (S D : (⟨2, ![800000, 128]⟩ : Shape).Idx → EReal) (W1 : (⟨2, ![256, 64]⟩ : Shape).Idx → EReal)
    (b1 : (⟨1, ![64]⟩ : Shape).Idx → EReal) (W2 : (⟨2, ![64, 1]⟩ : Shape).Idx → EReal)
    (b2 : (⟨1, ![1]⟩ : Shape).Idx → EReal) (u : (⟨2, ![800000, 1]⟩ : Shape).Idx → EReal) :
    (⟨1, ![800000]⟩ : Shape).Idx → EReal :=
  fun i => edgeMask (fun k => S (ix2 (i 0) k)) (fun k => D (ix2 (i 0) k))
    (fun k j => W1 (ix2 (upper k) j)) (fun k j => W1 (ix2 (lower k) j))
    (fun j => b1 (ix1 j)) (fun j => W2 (ix2 j (0 : Fin 1))) (b2 (ix1 (0 : Fin 1))) (u (ix2 (i 0) (0 : Fin 1)))

/-- A sum over the 256 rows is the sum over the upper half plus the sum over the lower half. -/
theorem sum_halves {M : Type*} [AddCommMonoid M] (f : Fin 256 → M) :
    ∑ k : Fin 256, f k = (∑ k : Fin 128, f (upper k)) + ∑ k : Fin 128, f (lower k) :=
  Fin.sum_univ_add (a := 128) (b := 128) f

end Cert.EdgeGate

end
-- ==== Proof.KernelBlock.lean ====
/-
  What the kernel's body writes for one block of 3200 edges, entry by entry.

  The body loads the block's source rows and destination rows (3200 × 128 each), the two halves of the
  first layer's weights (128 × 64 each), the biases, the second layer's column and the block's uniform
  draws, and stores one column of 3200 values. Entry `p` of that column depends only on row `p` of the
  two row blocks and on the draw `p`: the two matrix products into a zero accumulator are plain sums
  over the 128 features, their sum plus the bias is the hidden pre-activation, the third product is the
  sum over the 64 hidden units, and the rest is pointwise. Narrowing to sixteen bits is the identity on
  the extended reals, so the entry is exactly `EdgeGate.edgeMask` of those rows.
-/
import proofs.«405550_j89292370084347_1_alg».proof.Proof.Gen.KernelIdeal.Frame
import proofs.«405550_j89292370084347_1_alg».proof.Proof.EdgeGate
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The two matrix products as sums -/

theorem lhs_feat_0 (i : S3200x64.Idx) (q : dot_S3200x128_S128x64_S3200x64_1_0_0_1_n_n.contr.Idx) :
    (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem lhs_feat_1 (i : S3200x64.Idx) (q : dot_S3200x128_S128x64_S3200x64_1_0_0_1_n_n.contr.Idx) :
    (dot_S3200x128_S128x64_S3200x64_1_0_0_1_n_n.lhsIdx i q 1).val = (q ⟨0, by decide⟩).val :=
  dot_S3200x128_S128x64_S3200x64_1_0_0_1_n_n.lhsIdx_val_of_single rfl i q
theorem rhs_feat_0 (i : S3200x64.Idx) (q : dot_S3200x128_S128x64_S3200x64_1_0_0_1_n_n.contr.Idx) :
    (dot_S3200x128_S128x64_S3200x64_1_0_0_1_n_n.rhsIdx i q 0).val = (q ⟨0, by decide⟩).val :=
  dot_S3200x128_S128x64_S3200x64_1_0_0_1_n_n.rhsIdx_val_of_single rfl i q
theorem rhs_feat_1 (i : S3200x64.Idx) (q : dot_S3200x128_S128x64_S3200x64_1_0_0_1_n_n.contr.Idx) :
    (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-- A block of rows against a 128 × 64 matrix, into a zero accumulator: entry (p, j) is the sum over the
    128 features of row p's entry times the matrix's entry in column j. -/
theorem rows_times_weights (x : FVec Ideal S3200x128 .bf16) (w : FVec Ideal S128x64 .bf16) (p : Fin 3200) (j : Fin 64) :
    matmul dot_S3200x128_S128x64_S3200x64_1_0_0_1_n_n none x w (constant S3200x64 .f32 0x00000000#32) (ix2 p j)
      = ∑ k : Fin 128, x (ix2 p k) * w (ix2 k j) := by
  simp only [matmul]
  rw [Ideal.matmul_constant_zero_apply, ← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 p j) ((ValueIdx.contrEquiv1 dot_S3200x128_S128x64_S3200x64_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S3200x128_S128x64_S3200x64_1_0_0_1_n_n.rhsIdx (ix2 p j) ((ValueIdx.contrEquiv1 dot_S3200x128_S128x64_S3200x64_1_0_0_1_n_n 128 rfl rfl).symm k) = ix2 k j := funext fun a => Fin.ext (by
    match a with
    | ⟨0, _⟩ => exact (rhs_feat_0 _ _).trans hk
    | ⟨1, _⟩ => exact rhs_feat_1 _ _)
  rw [el, er]

theorem lhs_hid_0 (i : S3200x1.Idx) (q : dot_S3200x64_S64x1_S3200x1_1_0_0_1_n_n.contr.Idx) :
    (dot_S3200x64_S64x1_S3200x1_1_0_0_1_n_n.lhsIdx i q 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
theorem lhs_hid_1 (i : S3200x1.Idx) (q : dot_S3200x64_S64x1_S3200x1_1_0_0_1_n_n.contr.Idx) :
    (dot_S3200x64_S64x1_S3200x1_1_0_0_1_n_n.lhsIdx i q 1).val = (q ⟨0, by decide⟩).val :=
  dot_S3200x64_S64x1_S3200x1_1_0_0_1_n_n.lhsIdx_val_of_single rfl i q
theorem rhs_hid_0 (i : S3200x1.Idx) (q : dot_S3200x64_S64x1_S3200x1_1_0_0_1_n_n.contr.Idx) :
    (dot_S3200x64_S64x1_S3200x1_1_0_0_1_n_n.rhsIdx i q 0).val = (q ⟨0, by decide⟩).val :=
  dot_S3200x64_S64x1_S3200x1_1_0_0_1_n_n.rhsIdx_val_of_single rfl i q
theorem rhs_hid_1 (i : S3200x1.Idx) (q : dot_S3200x64_S64x1_S3200x1_1_0_0_1_n_n.contr.Idx) :
    (dot_S3200x64_S64x1_S3200x1_1_0_0_1_n_n.rhsIdx i q 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- The hidden block against the second layer's column, into a zero accumulator: entry p is the sum over
    the 64 hidden units. -/
theorem hidden_times_column (h : FVec Ideal S3200x64 .bf16) (w : FVec Ideal S64x1 .bf16) (p : Fin 3200) :
    matmul dot_S3200x64_S64x1_S3200x1_1_0_0_1_n_n none h w (constant S3200x1 .f32 0x00000000#32) (ix2 p (0 : Fin 1))
      = ∑ j : Fin 64, h (ix2 p j) * w (ix2 j (0 : Fin 1)) := by
  simp only [matmul]
  rw [Ideal.matmul_constant_zero_apply, ← Equiv.sum_comp (ValueIdx.contrEquiv1 dot_S3200x64_S64x1_S3200x1_1_0_0_1_n_n 64 rfl rfl).symm]
  refine Finset.sum_congr rfl fun k _ => ?_
  have hk := ValueIdx.contrEquiv1_symm_val dot_S3200x64_S64x1_S3200x1_1_0_0_1_n_n 64 rfl rfl k
  have el : dot_S3200x64_S64x1_S3200x1_1_0_0_1_n_n.lhsIdx (ix2 p (0 : Fin 1)) ((ValueIdx.contrEquiv1 dot_S3200x64_S64x1_S3200x1_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S3200x64_S64x1_S3200x1_1_0_0_1_n_n.rhsIdx (ix2 p (0 : Fin 1)) ((ValueIdx.contrEquiv1 dot_S3200x64_S64x1_S3200x1_1_0_0_1_n_n 64 rfl rfl).symm k) = ix2 k (0 : Fin 1) := funext fun a => Fin.ext (by
    match a with
    | ⟨0, _⟩ => exact (rhs_hid_0 _ _).trans hk
    | ⟨1, _⟩ => exact rhs_hid_1 _ _)
  rw [el, er]

/-! ## The body's payloads at an entry -/

/-- The zero the body compares and clips against is the extended real zero. -/
theorem scalar_zero : (Scalar.ofBits .f32 0x00000000#32 : Ideal .f32) = 0 := Ideal.ofBits_zero_f32

/-- The logit payload at entry `p`: row `p` of the two row blocks against the two weight halves, the bias row,
    the rectifier, the second layer's column and its bias. -/
theorem logit_entry (v0 v3 : Vec Ideal S3200x128 .f32) (v6 v9 : Vec Ideal S128x64 .f32) (v15 : Vec Ideal S1x64 .f32)
    (v21 : Vec Ideal S64x1 .f32) (v25 : Vec Ideal S1x1 .f32) (p : Fin 3200) :
    k0_pay2 v0 v3 v6 v9 v15 v21 v25 (ix2 p (0 : Fin 1))
      = EdgeGate.logit (fun k => v0 (ix2 p k)) (fun k => v3 (ix2 p k)) (fun k j => v6 (ix2 k j)) (fun k j => v9 (ix2 k j))
          (fun j => v15 (ix2 (0 : Fin 1) j)) (fun j => v21 (ix2 j (0 : Fin 1))) (v25 (ix2 (0 : Fin 1) (0 : Fin 1))) := by
  unfold k0_pay2 EdgeGate.logit EdgeGate.hiddenPre
  simp only [shapeCast_self]
  rw [addf_apply, hidden_times_column, broadcastTo_1b_ab_apply]
  congr 1
  refine Finset.sum_congr rfl fun j _ => ?_
  congr 1
  show max (matmul (F := Ideal) dot_S3200x128_S128x64_S3200x64_1_0_0_1_n_n none (truncf (F := Ideal) .bf16 v0 bitsLt_bf16_f32) (truncf (F := Ideal) .bf16 v6 bitsLt_bf16_f32) (constant (F := Ideal) S3200x64 .f32 0x00000000#32) (ix2 p j)
      + matmul (F := Ideal) dot_S3200x128_S128x64_S3200x64_1_0_0_1_n_n none (truncf (F := Ideal) .bf16 v3 bitsLt_bf16_f32) (truncf (F := Ideal) .bf16 v9 bitsLt_bf16_f32) (constant (F := Ideal) S3200x64 .f32 0x00000000#32) (ix2 p j)
      + broadcastTo S3200x64 v15 broadcasts_S1x64_S3200x64 (ix2 p j)) (Ideal.ofBits .f32 0x00000000#32) = _
  rw [rows_times_weights, rows_times_weights, broadcastTo_1b_ab_apply, Ideal.ofBits_zero_f32]
  rfl

/-- The stored payload at an entry, over any logit column `l` and the draws `u`: the body forms
    `0 − ε` where the specification writes `−ε`; on the extended reals these agree. -/
theorem gate_entry (l : FVec Ideal S3200x1 .f32) (u : Vec Ideal S3200x1 .f32) (y : S3200x1.Idx) :
    k0_pay1 l (k0_pay3 u) (k0_pay4 u) k0_pay5 y = EdgeGate.gate (l y) (u y) := by
  unfold EdgeGate.gate EdgeGate.squashed
  have hn : (Ideal.ofBits .f32 0x00000000#32 : EReal) - EdgeGate.noise (u y) = -(EdgeGate.noise (u y)) := by
    rw [Ideal.ofBits_zero_f32, sub_eq_add_neg, zero_add]
  rw [← hn]
  rfl

theorem hz : (![0, 0] : Fin 2 → Nat) = fun _ => 0 := funext fun a => by fin_cases a <;> rfl

/-- Entry `p` of the column the body stores, from the blocks it loaded: the specification's mask value of row
    `p` of the two row blocks, the parameters as loaded, and draw `p`. -/
theorem out_entry (x0 x1 : Vec Ideal S3200x128 .f32) (x2 x3 : Vec Ideal S128x64 .f32) (x4 : Vec Ideal S1x64 .f32)
    (x5 : Vec Ideal S64x1 .f32) (x6 : Vec Ideal S1x1 .f32) (x7 : Vec Ideal S3200x1 .f32) (p : Fin 3200) :
    out0_8 x0 x1 x2 x3 x4 x5 x6 x7 (ix2 p (0 : Fin 1))
      = EdgeGate.edgeMask (fun k => x0 (ix2 p k)) (fun k => x1 (ix2 p k)) (fun k j => x2 (ix2 k j)) (fun k j => x3 (ix2 k j))
          (fun j => x4 (ix2 (0 : Fin 1) j)) (fun j => x5 (ix2 j (0 : Fin 1))) (x6 (ix2 (0 : Fin 1) (0 : Fin 1))) (x7 (ix2 p (0 : Fin 1))) := by
  unfold out0_8
  rw [View.canon_unit_zero hz]
  simp only [View.ld_unit_zero (S := S3200x128) hz, View.ld_unit_zero (S := S128x64) hz, View.ld_unit_zero (S := S1x64) hz,
    View.ld_unit_zero (S := S64x1) hz, View.ld_unit_zero (S := S1x1) hz, View.ld_unit_zero (S := S3200x1) hz]
  rw [gate_entry, logit_entry]
  rfl

end Cert.KernelIdeal.BlockValue

end
-- ==== Proof.KernelArray.lean ====
/-
  The kernel's output column after the run, as one function of the arrays the region finds.

  The grid has 250 points; point `t` reads rows `3200 t … 3200 t + 3199` of the two gathered row arrays and of the
  draws, the whole of the five parameter arrays, and writes rows `3200 t … 3200 t + 3199` of the output column.
  So what point `t` writes back is block `t` of ONE whole-array function (`column`), the 250 blocks tile the
  column, and the column ends holding that function.
-/
import proofs.«405550_j89292370084347_1_alg».proof.Proof.KernelBlock
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx

variable (m : (ℓ : Loc nD τ sig) → Buf (Elt Ideal) ℓ) (ρ : Dev nD → PrngReg)

/-- The output column as a function of the gathered source rows `S`, the gathered destination rows `D`, the two
    halves of the first layer, the bias row, the second layer's column, its bias and the draws: entry `e` is the
    specification's mask value of row `e` of `S` and `D` and of draw `e`. -/
def column (S D : S800000x128.Idx → EReal) (Ws Wd : S128x64.Idx → EReal) (B1 : S1x64.Idx → EReal)
    (W2 : S64x1.Idx → EReal) (B2 : S1x1.Idx → EReal) (U : S800000x1.Idx → EReal) : S800000x1.Idx → EReal :=
  fun i => EdgeGate.edgeMask (fun k => S (ix2 (i 0) k)) (fun k => D (ix2 (i 0) k)) (fun k j => Ws (ix2 k j)) (fun k j => Wd (ix2 k j))
    (fun j => B1 (ix2 (0 : Fin 1) j)) (fun j => W2 (ix2 j (0 : Fin 1))) (B2 (ix2 (0 : Fin 1) (0 : Fin 1))) (U (ix2 (i 0) (0 : Fin 1)))

/-- The printed index maps, decided over the grid: the row windows and the draws move with the output's block, the
    parameter windows stay at block zero, and the output's block index is the point's number. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = win0_8.index t (0 : Fin 2) ∧ win0_7.index t (1 : Fin 2) = 0
    ∧ win0_8.index t (0 : Fin 2) = t.val ∧ win0_8.index t (1 : Fin 2) = 0 :=
  (by decide +kernel : ∀ t : Fin grid0.N, _)

/-- A point's number is below 250. -/
theorem point_lt (t : Fin cfg0.N) : t.val < 250 := lt_of_lt_of_eq t.isLt N_0

/-- Row `p` of point `t`'s block of rows is row `3200 t + p` of the array. -/
def blockRow (t : Fin cfg0.N) (p : Fin 3200) : Fin 800000 :=
  ⟨3200 * t.val + p.val, by have := point_lt t; have := p.isLt; omega⟩

/-- An entry of point `t`'s block of gathered source rows sits at the block's row in the array, same feature. -/
theorem emb_src (t : Fin cfg0.N) (p : Fin 3200) (k : Fin 128) :
    ((cfg0.win 0).blk t).view.emb (ix2 p k) = ix2 (blockRow t p) k := by
  obtain ⟨e00, e01, e10, e11, e20, e21, e30, e31, e40, e41, e50, e51, e60, e61, e70, e71, e80, e81⟩ := idx_facts t
  funext a; apply Fin.ext
  match a with
  | ⟨0, _⟩ => show win0_0.index t (0 : Fin 2) * 3200 + 1 * p.val = 3200 * t.val + p.val; omega
  | ⟨1, _⟩ => show win0_0.index t (1 : Fin 2) * 128 + 1 * k.val = k.val; omega

/-- The same for the gathered destination rows. -/
theorem emb_dst (t : Fin cfg0.N) (p : Fin 3200) (k : Fin 128) :
    ((cfg0.win 1).blk t).view.emb (ix2 p k) = ix2 (blockRow t p) k := by
  obtain ⟨e00, e01, e10, e11, e20, e21, e30, e31, e40, e41, e50, e51, e60, e61, e70, e71, e80, e81⟩ := idx_facts t
  funext a; apply Fin.ext
  match a with
  | ⟨0, _⟩ => show win0_1.index t (0 : Fin 2) * 3200 + 1 * p.val = 3200 * t.val + p.val; omega
  | ⟨1, _⟩ => show win0_1.index t (1 : Fin 2) * 128 + 1 * k.val = k.val; omega

/-- The block of the first layer's upper half is the whole array. -/
theorem emb_ws (t : Fin cfg0.N) (k : Fin 128) (j : Fin 64) :
    ((cfg0.win 2).blk t).view.emb (ix2 k j) = ix2 k j := by
  obtain ⟨e00, e01, e10, e11, e20, e21, e30, e31, e40, e41, e50, e51, e60, e61, e70, e71, e80, e81⟩ := idx_facts t
  funext a; apply Fin.ext
  match a with
  | ⟨0, _⟩ => show win0_2.index t (0 : Fin 2) * 128 + 1 * k.val = k.val; omega
  | ⟨1, _⟩ => show win0_2.index t (1 : Fin 2) * 64 + 1 * j.val = j.val; omega

/-- The block of the first layer's lower half is the whole array. -/
theorem emb_wd (t : Fin cfg0.N) (k : Fin 128) (j : Fin 64) :
    ((cfg0.win 3).blk t).view.emb (ix2 k j) = ix2 k j := by
  obtain ⟨e00, e01, e10, e11, e20, e21, e30, e31, e40, e41, e50, e51, e60, e61, e70, e71, e80, e81⟩ := idx_facts t
  funext a; apply Fin.ext
  match a with
  | ⟨0, _⟩ => show win0_3.index t (0 : Fin 2) * 128 + 1 * k.val = k.val; omega
  | ⟨1, _⟩ => show win0_3.index t (1 : Fin 2) * 64 + 1 * j.val = j.val; omega

/-- The block of the bias row is the whole row. -/
theorem emb_b1 (t : Fin cfg0.N) (z : Fin 1) (j : Fin 64) :
    ((cfg0.win 4).blk t).view.emb (ix2 z j) = ix2 z j := by
  obtain ⟨e00, e01, e10, e11, e20, e21, e30, e31, e40, e41, e50, e51, e60, e61, e70, e71, e80, e81⟩ := idx_facts t
  funext a; apply Fin.ext
  match a with
  | ⟨0, _⟩ => show win0_4.index t (0 : Fin 2) * 1 + 1 * z.val = z.val; omega
  | ⟨1, _⟩ => show win0_4.index t (1 : Fin 2) * 64 + 1 * j.val = j.val; omega

/-- The block of the second layer's column is the whole column. -/
theorem emb_w2 (t : Fin cfg0.N) (j : Fin 64) (z : Fin 1) :
    ((cfg0.win 5).blk t).view.emb (ix2 j z) = ix2 j z := by
  obtain ⟨e00, e01, e10, e11, e20, e21, e30, e31, e40, e41, e50, e51, e60, e61, e70, e71, e80, e81⟩ := idx_facts t
  funext a; apply Fin.ext
  match a with
  | ⟨0, _⟩ => show win0_5.index t (0 : Fin 2) * 64 + 1 * j.val = j.val; omega
  | ⟨1, _⟩ => show win0_5.index t (1 : Fin 2) * 1 + 1 * z.val = z.val; omega

/-- The block of the second layer's bias is the whole array. -/
theorem emb_b2 (t : Fin cfg0.N) (z z' : Fin 1) :
    ((cfg0.win 6).blk t).view.emb (ix2 z z') = ix2 z z' := by
  obtain ⟨e00, e01, e10, e11, e20, e21, e30, e31, e40, e41, e50, e51, e60, e61, e70, e71, e80, e81⟩ := idx_facts t
  funext a; apply Fin.ext
  match a with
  | ⟨0, _⟩ => show win0_6.index t (0 : Fin 2) * 1 + 1 * z.val = z.val; omega
  | ⟨1, _⟩ => show win0_6.index t (1 : Fin 2) * 1 + 1 * z'.val = z'.val; omega

/-- A draw of point `t`'s block of draws sits at the block's row in the array. -/
theorem emb_draw (t : Fin cfg0.N) (p : Fin 3200) (z : Fin 1) :
    ((cfg0.win 7).blk t).view.emb (ix2 p z) = ix2 (blockRow t p) z := by
  obtain ⟨e00, e01, e10, e11, e20, e21, e30, e31, e40, e41, e50, e51, e60, e61, e70, e71, e80, e81⟩ := idx_facts t
  funext a; apply Fin.ext
  match a with
  | ⟨0, _⟩ => show win0_7.index t (0 : Fin 2) * 3200 + 1 * p.val = 3200 * t.val + p.val; omega
  | ⟨1, _⟩ => show win0_7.index t (1 : Fin 2) * 1 + 1 * z.val = z.val; omega

/-- An entry of point `t`'s block of the output column sits at the block's row in the column. -/
theorem emb_out (t : Fin cfg0.N) (p : Fin 3200) (z : Fin 1) :
    ((cfg0.win 8).blk t).view.emb (ix2 p z) = ix2 (blockRow t p) z := by
  obtain ⟨e00, e01, e10, e11, e20, e21, e30, e31, e40, e41, e50, e51, e60, e61, e70, e71, e80, e81⟩ := idx_facts t
  funext a; apply Fin.ext
  match a with
  | ⟨0, _⟩ => show win0_8.index t (0 : Fin 2) * 3200 + 1 * p.val = 3200 * t.val + p.val; omega
  | ⟨1, _⟩ => show win0_8.index t (1 : Fin 2) * 1 + 1 * z.val = z.val; omega

/-- The mask value depends only on its eight arguments. -/
theorem edgeMask_congr {s s' d d' : Fin 128 → EReal} {Ws Ws' Wd Wd' : Fin 128 → Fin 64 → EReal} {b1 b1' W2 W2' : Fin 64 → EReal}
    {b2 b2' u u' : EReal} (hs : s = s') (hd : d = d') (hWs : Ws = Ws') (hWd : Wd = Wd') (hb1 : b1 = b1') (hW2 : W2 = W2')
    (hb2 : b2 = b2') (hu : u = u') :
    EdgeGate.edgeMask s d Ws Wd b1 W2 b2 u = EdgeGate.edgeMask s' d' Ws' Wd' b1' W2' b2' u' := by
  subst hs hd hWs hWd hb1 hW2 hb2 hu; rfl

/-- Over ANY contents of the eight input arrays: the column the body stores at point `t`, from the windows'
    blocks of those arrays, is block `t` of `column` of the arrays. Row `p` of a row block is row `3200 t + p`
    of its array, the parameter blocks are the whole parameter arrays, and entry `p` of the output block is entry
    `3200 t + p` of the column. -/
theorem block_eq (t : Fin cfg0.N) (A0 A1 : S800000x128.Idx → EReal) (A2 A3 : S128x64.Idx → EReal) (A4 : S1x64.Idx → EReal)
    (A5 : S64x1.Idx → EReal) (A6 : S1x1.Idx → EReal) (A7 : S800000x1.Idx → EReal) :
    (cfg0.win 8).cut (grid0.coords t)
      (out0_8 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (((cfg0.win 7).blk t).view.read (Elt Ideal) A7))
      = ((cfg0.win 8).blk t).view.read (Elt Ideal) (column A0 A1 A2 A3 A4 A5 A6 A7) := by
  obtain ⟨e00, e01, e10, e11, e20, e21, e30, e31, e40, e41, e50, e51, e60, e61, e70, e71, e80, e81⟩ := idx_facts t
  have ht := point_lt t
  funext y
  obtain ⟨p, q, rfl⟩ : ∃ (p : Fin 3200) (q : Fin 1), y = ix2 p q := ⟨y 0, y 1, eq_ix2 y⟩
  obtain rfl : q = 0 := Subsingleton.elim _ _
  have hp := p.isLt
  refine (BlockValue.out_entry (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    (((cfg0.win 6).blk t).view.read (Elt Ideal) A6) (((cfg0.win 7).blk t).view.read (Elt Ideal) A7) p).trans ?_
  show _ = column A0 A1 A2 A3 A4 A5 A6 A7 (((cfg0.win 8).blk t).view.emb (ix2 p (0 : Fin 1)))
  rw [emb_out t p (0 : Fin 1)]
  exact edgeMask_congr
    (funext fun k => congrArg A0 (emb_src t p k))
    (funext fun k => congrArg A1 (emb_dst t p k))
    (funext fun k => funext fun j => congrArg A2 (emb_ws t k j))
    (funext fun k => funext fun j => congrArg A3 (emb_wd t k j))
    (funext fun j => congrArg A4 (emb_b1 t (0 : Fin 1) j))
    (funext fun j => congrArg A5 (emb_w2 t j (0 : Fin 1)))
    (congrArg A6 (emb_b2 t (0 : Fin 1) (0 : Fin 1)))
    (congrArg A7 (emb_draw t p (0 : Fin 1)))

/-- WHAT POINT `t` WRITES BACK is block `t` of `column` of the arrays as the region finds them. -/
theorem flushed_eq (c : Dev nD) (t : Fin cfg0.N) :
    (dats m 0 c).flushed 8 t = ((cfg0.win 8).blk t).view.read (Elt Ideal)
      (column (V m c (Pipeline.arrRef spec0 0)) (V m c (Pipeline.arrRef spec0 1)) (V m c (Pipeline.arrRef spec0 2)) (V m c (Pipeline.arrRef spec0 3))
        (V m c (Pipeline.arrRef spec0 4)) (V m c (Pipeline.arrRef spec0 5)) (V m c (Pipeline.arrRef spec0 6)) (V m c (Pipeline.arrRef spec0 7))) := by
  show (cfg0.win 8).cut (grid0.coords t) ((dats m 0 c).after 8 t) = _
  rw [after0_8]
  unfold iblk
  exact block_eq t (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) (V m c (Pipeline.arrRef spec0 7))

/-- An index of the column is in point `t`'s block iff each coordinate is in the block's range on its axis. -/
theorem mem_blk (t : Fin cfg0.N) (i : S800000x1.Idx) :
    i ∈ ((cfg0.win 8).blk t).view.set ↔ ∀ a : Fin 2, win0_8.index t a * S3200x1.size a ≤ (i a).val ∧ (i a).val < win0_8.index t a * S3200x1.size a + S3200x1.size a := by
  show i ∈ ((View.whole main_v10).slice (win0_8.rect t)).set ↔ _
  rw [View.set_slice_whole, Rect.mem_set_unit]
  exact Iff.rfl

/-- The 250 blocks of 3200 rows tile the column: row `r` is in the block of point `r / 3200`, which writes back. -/
theorem covered (i : S800000x1.Idx) :
    ∃ t : Fin cfg0.N, (cfg0.win 8).flush t = true ∧ i ∈ ((cfg0.win 8).blk t).view.set := by
  have hi0 : (i 0).val < 800000 := (i 0).isLt
  have hi1 : (i 1).val < 1 := (i 1).isLt
  have hN : (i 0).val / 3200 < cfg0.N := lt_of_lt_of_eq (show (i 0).val / 3200 < 250 by omega) N_0.symm
  obtain ⟨e00, e01, e10, e11, e20, e21, e30, e31, e40, e41, e50, e51, e60, e61, e70, e71, e80, e81⟩ := idx_facts ⟨(i 0).val / 3200, hN⟩
  have e80' : win0_8.index ⟨(i 0).val / 3200, hN⟩ (0 : Fin 2) = (i 0).val / 3200 := e80
  refine ⟨⟨(i 0).val / 3200, hN⟩, flush0_8 _, ?_⟩
  rw [mem_blk]
  intro a
  match a with
  | ⟨0, _⟩ =>
    show win0_8.index ⟨(i 0).val / 3200, hN⟩ (0 : Fin 2) * 3200 ≤ (i 0).val
      ∧ (i 0).val < win0_8.index ⟨(i 0).val / 3200, hN⟩ (0 : Fin 2) * 3200 + 3200
    omega
  | ⟨1, _⟩ =>
    show win0_8.index ⟨(i 0).val / 3200, hN⟩ (1 : Fin 2) * 1 ≤ (i 1).val
      ∧ (i 1).val < win0_8.index ⟨(i 0).val / 3200, hN⟩ (1 : Fin 2) * 1 + 1
    omega

/-- THE OUTPUT COLUMN after the run is `column` of the arrays as the region finds them: the 250 blocks tile it. -/
theorem final (c : Dev nD) :
    (dats m 0 c).arrAt 8 cfg0.N
      = column (V m c (Pipeline.arrRef spec0 0)) (V m c (Pipeline.arrRef spec0 1)) (V m c (Pipeline.arrRef spec0 2)) (V m c (Pipeline.arrRef spec0 3))
          (V m c (Pipeline.arrRef spec0 4)) (V m c (Pipeline.arrRef spec0 5)) (V m c (Pipeline.arrRef spec0 6)) (V m c (Pipeline.arrRef spec0 7)) :=
  (dats m 0 c).arrAt_eq_of_cover 8 _ (fun t _ => flushed_eq m c t) covered

end Cert.KernelIdeal.ArrayValue

end
-- ==== Proof.KernelResult.lean ====
/-
  The kernel program's result as one function of its arguments.

  After the region the output column holds, at edge `e`, the mask value of row `e` of the two gathered row arrays,
  of the two halves of the first layer, the biases, the second layer and draw `e`. The halves are the upper and
  the lower 128 rows of the first layer's matrix, the bias row and the second bias are the given vectors under a
  unit axis, and, when every edge index lies in `-50000 ≤ · < 50000`, the gathered row arrays are the plain row
  gathers of the node table at the wrapped indices. The one operation after the region drops the column's unit
  axis. So the program's result is the specification's mask array of the arguments.
-/
import proofs.«405550_j89292370084347_1_alg».proof.Proof.HostPrefix
import proofs.«405550_j89292370084347_1_alg».proof.Proof.KernelArray
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen Idealize.ShloMosaic.ValueIdx
open Cert.EdgeGate (upper lower edgeMask maskArray)

variable (m : (ℓ : Loc nD τ sig) → Buf (Elt Ideal) ℓ) (ρ : Dev nD → PrngReg)

/-! ## The parameter arrays read at an index -/

/-- Row `k` of the upper half is row `k` of the matrix. -/
theorem upper_apply (a1 : FVec Ideal S256x64 .f32) (k : Fin 128) (j : Fin 64) :
    extractStridedSlice S128x64 ![0, 0] a1 slices_S256x64_S128x64_0_0 (ix2 k j) = a1 (ix2 (upper k) j) :=
  slice2_axis0_apply 0 a1 slices_S256x64_S128x64_0_0 k j (upper k) (by show k.val = 0 + k.val; omega)

/-- Row `k` of the lower half is row `128 + k` of the matrix. -/
theorem lower_apply (a1 : FVec Ideal S256x64 .f32) (k : Fin 128) (j : Fin 64) :
    extractStridedSlice S128x64 ![128, 0] a1 slices_S256x64_S128x64_128_0 (ix2 k j) = a1 (ix2 (lower k) j) :=
  slice2_axis0_apply 128 a1 slices_S256x64_S128x64_128_0 k j (lower k) rfl

/-- The bias row under its unit axis. -/
theorem bias_apply (a2 : FVec Ideal S64 .f32) (j : Fin 64) :
    shapeCast S1x64 a2 shapeCasts_S64_S1x64 (ix2 (0 : Fin 1) j) = a2 (ix1 j) :=
  shapeCast_a_1a_apply a2 shapeCasts_S64_S1x64 0 j

/-- The second bias under its unit axis. -/
theorem bias2_apply (a4 : FVec Ideal S1 .f32) :
    shapeCast S1x1 a4 shapeCasts_S1_S1x1 (ix2 (0 : Fin 1) (0 : Fin 1)) = a4 (ix1 (0 : Fin 1)) :=
  shapeCast_a_1a_apply a4 shapeCasts_S1_S1x1 0 0

/-- The column of the gathered rows, the halves, the lifted biases, the second layer and the draws is, entry by
    entry, the specification's mask array of the gathered rows and the parameters as given. -/
theorem column_params (S D : S800000x128.Idx → EReal) (a1 : FVec Ideal S256x64 .f32) (a2 : FVec Ideal S64 .f32)
    (a3 : FVec Ideal S64x1 .f32) (a4 : FVec Ideal S1 .f32) (a6 : FVec Ideal S800000x1 .f32) (i : S800000x1.Idx) :
    ArrayValue.column S D (extractStridedSlice S128x64 ![0, 0] a1 slices_S256x64_S128x64_0_0)
        (extractStridedSlice S128x64 ![128, 0] a1 slices_S256x64_S128x64_128_0)
        (shapeCast S1x64 a2 shapeCasts_S64_S1x64) a3 (shapeCast S1x1 a4 shapeCasts_S1_S1x1) a6 i
      = maskArray S D a1 a2 a3 a4 a6 (ix1 (i 0)) := by
  unfold ArrayValue.column maskArray
  simp only [upper_apply, lower_apply, bias_apply, bias2_apply]

/-- The same over any eight arrays equal to those: the equalities are used by substitution, never by search. -/
theorem column_of (X0 X1 : S800000x128.Idx → EReal) (X2 X3 : S128x64.Idx → EReal) (X4 : S1x64.Idx → EReal) (X5 : S64x1.Idx → EReal)
    (X6 : S1x1.Idx → EReal) (X7 : S800000x1.Idx → EReal)
    (S D : S800000x128.Idx → EReal) (a1 : FVec Ideal S256x64 .f32) (a2 : FVec Ideal S64 .f32)
    (a3 : FVec Ideal S64x1 .f32) (a4 : FVec Ideal S1 .f32) (a6 : FVec Ideal S800000x1 .f32)
    (h0 : X0 = S) (h1 : X1 = D) (h2 : X2 = extractStridedSlice S128x64 ![0, 0] a1 slices_S256x64_S128x64_0_0)
    (h3 : X3 = extractStridedSlice S128x64 ![128, 0] a1 slices_S256x64_S128x64_128_0)
    (h4 : X4 = shapeCast S1x64 a2 shapeCasts_S64_S1x64) (h5 : X5 = a3) (h6 : X6 = shapeCast S1x1 a4 shapeCasts_S1_S1x1) (h7 : X7 = a6) :
    ArrayValue.column X0 X1 X2 X3 X4 X5 X6 X7 = fun i : S800000x1.Idx => maskArray S D a1 a2 a3 a4 a6 (ix1 (i 0)) := by
  subst h0 h1 h2 h3 h4 h5 h6 h7
  funext i
  exact column_params _ _ _ _ _ _ _ i

/-- Dropping the unit axis of a column: entry `e` is the column's entry `(e, 0)`. -/
theorem drop_unit_apply (x : S800000x1.Idx → EReal) (e : Fin 800000) :
    shapeCast S800000 x shapeCasts_S800000x1_S800000 (ix1 e) = x (ix2 e (0 : Fin 1)) :=
  shapeCast_apply x shapeCasts_S800000x1_S800000 _ _ (by
    rw [Shape.rowMajor_val_two, Shape.rowMajor_val_one]
    show e.val * 1 + 0 = e.val
    omega)

/-! ## The arguments under their literal types, and the result -/

abbrev nodes (c : Dev nD) : FVec Ideal S50000x128 .f32 := m ((c : Thread nD τ).loc main_arg0)
abbrev layer1 (c : Dev nD) : FVec Ideal S256x64 .f32 := m ((c : Thread nD τ).loc main_arg1)
abbrev bias1 (c : Dev nD) : FVec Ideal S64 .f32 := m ((c : Thread nD τ).loc main_arg2)
abbrev layer2 (c : Dev nD) : FVec Ideal S64x1 .f32 := m ((c : Thread nD τ).loc main_arg3)
abbrev bias2 (c : Dev nD) : FVec Ideal S1 .f32 := m ((c : Thread nD τ).loc main_arg4)
abbrev edges (c : Dev nD) : IVec S2x800000 32 := m ((c : Thread nD τ).loc main_arg5)
abbrev draws (c : Dev nD) : FVec Ideal S800000x1 .f32 := m ((c : Thread nD τ).loc main_arg6)

/-- The specification's mask array of the program's arguments, the gathered rows being the plain row gathers of the
    node table at the wrapped source and destination indices. -/
def value (c : Dev nD) : (⟨1, ![800000]⟩ : Shape).Idx → EReal :=
  maskArray (Prefix.rows (nodes m c) (Prefix.endpoint0 (edges m c))) (Prefix.rows (nodes m c) (Prefix.endpoint1 (edges m c)))
    (layer1 m c) (bias1 m c) (layer2 m c) (bias2 m c) (draws m c)

/-- Every edge index lies in `-50000 ≤ · < 50000`. -/
def InRange (c : Dev nD) : Prop :=
  ∀ i : S2x800000.Idx, -50000 ≤ (edges m c i).toInt ∧ (edges m c i).toInt < 50000

/-- The output column after the region, under the range: the mask array's entries, as a column. -/
theorem column_eq (c : Dev nD) (hr : InRange m c) :
    (dats m 0 c).arrAt 8 cfg0.N = fun i : S800000x1.Idx => value m c (ix1 (i 0)) := by
  have h0 : V m c (Pipeline.arrRef spec0 0) = Prefix.rows (nodes m c) (Prefix.endpoint0 (edges m c)) :=
    (Prefix.V_src m c).trans (Prefix.guardedRows_eq _ _ (Prefix.endpoint0_range _ hr))
  have h1 : V m c (Pipeline.arrRef spec0 1) = Prefix.rows (nodes m c) (Prefix.endpoint1 (edges m c)) :=
    (Prefix.V_dst m c).trans (Prefix.guardedRows_eq _ _ (Prefix.endpoint1_range _ hr))
  have h2 : V m c (Pipeline.arrRef spec0 2) = extractStridedSlice S128x64 ![0, 0] (layer1 m c) slices_S256x64_S128x64_0_0 := Prefix.V_upper m c
  have h3 : V m c (Pipeline.arrRef spec0 3) = extractStridedSlice S128x64 ![128, 0] (layer1 m c) slices_S256x64_S128x64_128_0 := Prefix.V_lower m c
  have h4 : V m c (Pipeline.arrRef spec0 4) = shapeCast S1x64 (bias1 m c) shapeCasts_S64_S1x64 := Prefix.V_bias m c
  have h5 : V m c (Pipeline.arrRef spec0 5) = layer2 m c := V_main_arg3 m c
  have h6 : V m c (Pipeline.arrRef spec0 6) = shapeCast S1x1 (bias2 m c) shapeCasts_S1_S1x1 := Prefix.V_bias2 m c
  have h7 : V m c (Pipeline.arrRef spec0 7) = draws m c := V_main_arg6 m c
  exact (ArrayValue.final m c).trans (column_of _ _ _ _ _ _ _ _ _ _ _ _ _ _ _ h0 h1 h2 h3 h4 h5 h6 h7)

/-- The program's result: the operation after the region drops the column's unit axis. -/
theorem tail_eq (c : Dev nD) (hr : InRange m c) :
    Pipeline.afterTail₀ cfgs (dats m) 0 (V0 m) [hostOps1] c main_v11 = value m c := by
  unfold Pipeline.afterTail₀
  show StableHlo.after hostOps1 _ (Proc.devRef .tc main_v11) = _
  after_results
  funext i
  obtain ⟨e, rfl⟩ : ∃ e : Fin 800000, i = ix1 e := ⟨i 0, eq_ix1 i⟩
  show shapeCast S800000 (Pipeline.withArrays spec0 c (V0 m c) (fun w => (dats m 0 c).arrAt w cfg0.N) (Proc.devRef .tc (Pipeline.arrRef spec0 8)))
    shapeCasts_S800000x1_S800000 (ix1 e) = _
  rw [drop_unit_apply]
  refine (congrFun (Pipeline.withArrays_arr spec0 launch0.win.arr_inj c _ _ 8) _).trans ?_
  show (dats m 0 c).arrAt 8 cfg0.N (ix2 e (0 : Fin 1)) = _
  rw [column_eq m c hr]

/-- The frame run re-posted: when every edge index is in range, every weakly fair execution of the program ends with
    its result at the specification's mask array of the arguments, and the arguments unchanged. -/
theorem run (hr : ∀ c : Dev nD, InRange m c) :
    θ_run defs (onTc (τ := τ) (main (F := Ideal))) ⟨m, fun _ => 0, ρ⟩ (fun r => ∀ c : Dev nD,
      r.2.mem ((c.tc : Thread nD τ).loc main_v11) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v11 (Pipeline.mem_restRefs_of main_v11 (by decide) (by decide))).trans (tail_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c)))⟩) (run_main m ρ)

end Cert.KernelIdeal.Result

end
-- ==== Proof.ReferenceValue.lean ====
/-
  The reference's result is the specification.

  The reference program scores every edge by a two-layer perceptron on the concatenation of its two gathered
  endpoint rows and squashes the logit, shifted by a logistic noise term, through 1 / (1 + e^(-x)). Read one
  operation at a time, its result at edge e is the specification's value for that edge:

  * the 256-term product of the concatenated row with the first layer splits into the sum over the upper 128 rows
    (where the concatenation reads the source row) plus the sum over the lower 128 rows (where it reads the
    destination row): only commutativity and associativity of + on the extended reals are used;
  * the rectifier's zero is the word 0x00000000, the extended real 0;
  * the logistic is spelt 1 / (1 + e^(-x)) with the word 0x3F800000 for 1, which is the extended real 1, and that
    quotient is the logistic function's definition;
  * every other constant is the same word on both sides and is never evaluated.
-/
import proofs.«405550_j89292370084347_1_alg».proof.Proof.EdgeGate
import proofs.«405550_j89292370084347_1_alg».proof.Proof.Gen.ReferenceIdeal.Read
import Idealize.ShloMosaic.Lib.Pipeline.Value
import Idealize.ShloMosaic.Lib.ValueIdx
import Idealize.ShloMosaic.PureOps.Ideal
import Idealize.ShloMosaic.PureOps.Ideal.Laws
import Idealize.ShloMosaic.PureOps.IdealRules

noncomputable section

namespace Cert.ReferenceIdeal.RefValue

open Cert.ReferenceIdeal Cert.ReferenceIdeal.Gen Cert.ReferenceIdeal.Read
open Idealize.ShloMosaic Idealize.ShloMosaic.ValueIdx
open Cert.EdgeGate (upper lower hiddenPre logit noise squashed gate edgeMask maskArray sum_halves)

/-- The binary32 word of 1.0 is the extended real 1. -/
theorem ofBits_one_f32 : Ideal.ofBits .f32 0x3F800000#32 = 1 :=
  IdealRules.sign_bit.ideal_onePat .f32

/-! ## The concatenated row: its first 128 entries are the source row, its last 128 the destination row -/

theorem concat_upper (x0 : (⟨S50000x128, .f32⟩ : BufTy).Contents (Elt Ideal)) (x5 : (⟨S2x800000, .i32⟩ : BufTy).Contents (Elt Ideal))
    (e : Fin 800000) (k : Fin 128) :
    val_main_v18 (F := Ideal) x0 x5 (ix2 e (upper k)) = val_main_v10 (F := Ideal) x0 x5 (ix2 e k) := by
  unfold val_main_v18
  exact concatenate_pair_apply_left (t := S800000x256) (s₁ := S800000x128) (s₂ := S800000x128) 1 _ _ _ (ix2 e (upper k)) rfl (ix2 e k)
    (fun b => match b with | ⟨0, _⟩ => rfl | ⟨1, _⟩ => rfl)

theorem concat_lower (x0 : (⟨S50000x128, .f32⟩ : BufTy).Contents (Elt Ideal)) (x5 : (⟨S2x800000, .i32⟩ : BufTy).Contents (Elt Ideal))
    (e : Fin 800000) (k : Fin 128) :
    val_main_v18 (F := Ideal) x0 x5 (ix2 e (lower k)) = val_main_v17 (F := Ideal) x0 x5 (ix2 e k) := by
  unfold val_main_v18
  exact concatenate_pair_apply_right (t := S800000x256) (s₁ := S800000x128) (s₂ := S800000x128) 1 _ _ _ (ix2 e (lower k)) rfl rfl (ix2 e k)
    (fun b => match b with | ⟨0, _⟩ => fun _ => rfl | ⟨1, _⟩ => fun h => absurd rfl h)
    (by show k.val + 128 = 128 + k.val; omega)

/-! ## The first layer -/

/-- Hidden unit (e, j) before the rectifier: the 256-term product split into its two halves, and the bias. -/
theorem hidden_eq (x0 : (⟨S50000x128, .f32⟩ : BufTy).Contents (Elt Ideal)) (x1 : (⟨S256x64, .f32⟩ : BufTy).Contents (Elt Ideal))
    (x2 : (⟨S64, .f32⟩ : BufTy).Contents (Elt Ideal)) (x5 : (⟨S2x800000, .i32⟩ : BufTy).Contents (Elt Ideal))
    (e : Fin 800000) (j : Fin 64) :
    val_main_v22 (F := Ideal) x0 x1 x2 x5 (ix2 e j)
      = hiddenPre (fun k => val_main_v10 (F := Ideal) x0 x5 (ix2 e k)) (fun k => val_main_v17 (F := Ideal) x0 x5 (ix2 e k))
          (fun k j => x1 (ix2 (upper k) j)) (fun k j => x1 (ix2 (lower k) j)) (fun j => x2 (ix1 j)) j := by
  rw [val_main_v22_apply, val_main_v19_apply, val_main_v21_apply, val_main_v20_apply, sum_halves]
  unfold hiddenPre
  have hl : ∀ k : Fin 256, lidx_main_v19 (ix2 e j) k = ix2 e k := fun k =>
    funext fun a => Fin.ext (by match a with | ⟨0, _⟩ => rfl | ⟨1, _⟩ => rfl)
  have hr : ∀ k : Fin 256, ridx_main_v19 (ix2 e j) k = ix2 k j := fun k =>
    funext fun a => Fin.ext (by match a with | ⟨0, _⟩ => rfl | ⟨1, _⟩ => rfl)
  have hb : idx_main_v20 (idx_main_v21 (ix2 e j)) = ix1 j :=
    funext fun a => Fin.ext (by match a with | ⟨0, _⟩ => rfl)
  simp only [hl, hr, hb]
  rw [Ideal.addf_def]
  refine congrArg₂ (· + ·) (congrArg₂ (· + ·) ?_ ?_) rfl
  · exact Finset.sum_congr rfl fun k _ => by rw [concat_upper]
  · exact Finset.sum_congr rfl fun k _ => by rw [concat_lower]

/-! ## The second layer -/

/-- The logit of edge e: the rectified hidden units against the second layer, and its bias. -/
theorem logit_eq (x0 : (⟨S50000x128, .f32⟩ : BufTy).Contents (Elt Ideal)) (x1 : (⟨S256x64, .f32⟩ : BufTy).Contents (Elt Ideal))
    (x2 : (⟨S64, .f32⟩ : BufTy).Contents (Elt Ideal)) (x3 : (⟨S64x1, .f32⟩ : BufTy).Contents (Elt Ideal))
    (x4 : (⟨S1, .f32⟩ : BufTy).Contents (Elt Ideal)) (x5 : (⟨S2x800000, .i32⟩ : BufTy).Contents (Elt Ideal)) (e : Fin 800000) :
    val_main_v27 (F := Ideal) x0 x1 x2 x3 x4 x5 (ix2 e (0 : Fin 1))
      = logit (fun k => val_main_v10 (F := Ideal) x0 x5 (ix2 e k)) (fun k => val_main_v17 (F := Ideal) x0 x5 (ix2 e k))
          (fun k j => x1 (ix2 (upper k) j)) (fun k j => x1 (ix2 (lower k) j)) (fun j => x2 (ix1 j))
          (fun j => x3 (ix2 j (0 : Fin 1))) (x4 (ix1 (0 : Fin 1))) := by
  rw [val_main_v27_apply, val_main_v24_apply, val_main_v26_apply, val_main_v25_apply]
  unfold logit
  have hl : ∀ k : Fin 64, lidx_main_v24 (ix2 e (0 : Fin 1)) k = ix2 e k := fun k =>
    funext fun a => Fin.ext (by match a with | ⟨0, _⟩ => rfl | ⟨1, _⟩ => rfl)
  have hr : ∀ k : Fin 64, ridx_main_v24 (ix2 e (0 : Fin 1)) k = ix2 k (0 : Fin 1) := fun k =>
    funext fun a => Fin.ext (by match a with | ⟨0, _⟩ => rfl | ⟨1, _⟩ => rfl)
  have hb : idx_main_v25 (idx_main_v26 (ix2 e (0 : Fin 1))) = ix1 (0 : Fin 1) :=
    funext fun a => Fin.ext (by match a with | ⟨0, _⟩ => rfl)
  simp only [hl, hr, hb, val_main_v23_apply, hidden_eq, val_main_call0_v0_apply, val_main_call0_cst_apply,
    Ideal.ofBits_def, Ideal.ofBits_zero_f32, Ideal.addf_def, Ideal.maximumf_def]

/-! ## The noise, the squashing and the clip -/

/-- The noise variable of edge e. -/
theorem noise_eq (x6 : (⟨S800000x1, .f32⟩ : BufTy).Contents (Elt Ideal)) (i : S800000x1.Idx) :
    val_main_v31 (F := Ideal) x6 i = noise (x6 i) := by
  rw [val_main_v31_apply, val_main_v29_apply, val_main_v28_apply, val_main_cst_apply, val_main_v30_apply,
    val_main_cst_3_apply]
  rfl

/-- The reference's 1 / (1 + e^(-x)) at edge e is the logistic of the halved shifted logit. -/
theorem squashed_eq (x0 : (⟨S50000x128, .f32⟩ : BufTy).Contents (Elt Ideal)) (x1 : (⟨S256x64, .f32⟩ : BufTy).Contents (Elt Ideal))
    (x2 : (⟨S64, .f32⟩ : BufTy).Contents (Elt Ideal)) (x3 : (⟨S64x1, .f32⟩ : BufTy).Contents (Elt Ideal))
    (x4 : (⟨S1, .f32⟩ : BufTy).Contents (Elt Ideal)) (x5 : (⟨S2x800000, .i32⟩ : BufTy).Contents (Elt Ideal))
    (x6 : (⟨S800000x1, .f32⟩ : BufTy).Contents (Elt Ideal)) (e : Fin 800000) :
    val_main_v44 (F := Ideal) x0 x1 x2 x3 x4 x5 x6 (ix2 e (0 : Fin 1))
      = squashed (logit (fun k => val_main_v10 (F := Ideal) x0 x5 (ix2 e k)) (fun k => val_main_v17 (F := Ideal) x0 x5 (ix2 e k))
          (fun k j => x1 (ix2 (upper k) j)) (fun k j => x1 (ix2 (lower k) j)) (fun j => x2 (ix1 j))
          (fun j => x3 (ix2 j (0 : Fin 1))) (x4 (ix1 (0 : Fin 1)))) (x6 (ix2 e (0 : Fin 1))) := by
  rw [val_main_v44_apply, val_main_v43_apply, val_main_cst_6_apply, val_main_v42_apply, val_main_v41_apply,
    val_main_cst_5_apply, val_main_v40_apply, val_main_v39_apply, val_main_v38_apply, val_main_v37_apply,
    val_main_cst_4_apply, val_main_v36_apply, val_main_v35_apply, val_main_v34_apply, val_main_v33_apply,
    val_main_v32_apply, noise_eq, logit_eq]
  simp only [Ideal.ofBits_def, ofBits_one_f32]
  rfl

/-! ## The whole mask -/

/-- The reference's result is the specification's mask of the two gathered row arrays, the parameters and the draws. -/
theorem mask_eq (x0 : (⟨S50000x128, .f32⟩ : BufTy).Contents (Elt Ideal)) (x1 : (⟨S256x64, .f32⟩ : BufTy).Contents (Elt Ideal)) (x2 : (⟨S64, .f32⟩ : BufTy).Contents (Elt Ideal)) (x3 : (⟨S64x1, .f32⟩ : BufTy).Contents (Elt Ideal)) (x4 : (⟨S1, .f32⟩ : BufTy).Contents (Elt Ideal)) (x5 : (⟨S2x800000, .i32⟩ : BufTy).Contents (Elt Ideal)) (x6 : (⟨S800000x1, .f32⟩ : BufTy).Contents (Elt Ideal)) :
    val_main_v49 (F := Ideal) x0 x1 x2 x3 x4 x5 x6
      = Cert.EdgeGate.maskArray (val_main_v10 (F := Ideal) x0 x5) (val_main_v17 (F := Ideal) x0 x5) x1 x2 x3 x4 x6 := by
  funext i
  have hi : idx_main_v45 i = ix2 (n0 := 800000) (i 0) (0 : Fin 1) :=
    funext fun a => Fin.ext (by
      match a with
      | ⟨0, _⟩ => exact Nat.div_one _
      | ⟨1, _⟩ => rfl)
  rw [val_main_v49_apply, val_main_v47_apply, val_main_v48_apply, val_main_cst_8_apply, val_main_v46_apply,
    val_main_cst_7_apply, val_main_v45_apply, hi, squashed_eq x0 x1 x2 x3 x4 x5 x6 (i 0)]
  rfl

end Cert.ReferenceIdeal.RefValue

end
-- ==== Proof.GatherBridge.lean ====
/-
  The two programs gather the same rows.

  Both programs wrap each endpoint index (a negative index has the table's extent, 50000, added) and gather the rows
  of the node table at the wrapped indices; the reference spells the wrapped index column one operation at a time,
  the kernel program's prefix spells it in the same operations. The two gathered arrays are the same term.
-/
import proofs.«405550_j89292370084347_1_alg».proof.Proof.HostPrefix
import proofs.«405550_j89292370084347_1_alg».proof.Proof.Gen.ReferenceIdeal.Read

set_option maxRecDepth 16384

noncomputable section

open Idealize.ShloMosaic

namespace Cert.GatherBridge

open Cert.ReferenceIdeal.Read

/-- The reference's gathered source rows are the prefix's plain gather at row 0 of the edge-index array. -/
theorem rows_src (x0 : FVec Ideal Cert.KernelIdeal.S50000x128 .f32) (x5 : IVec Cert.KernelIdeal.S2x800000 32) :
    val_main_v10 (F := Ideal) x0 x5 = Cert.KernelIdeal.Prefix.rows x0 (Cert.KernelIdeal.Prefix.endpoint0 x5) := by
  unfold val_main_v10 val_main_v9 val_main_v8 val_main_v7 val_main_v6 val_main_v5 val_main_v4 val_main_v1 val_main_v0
    val_main_c val_main_c_0 Cert.KernelIdeal.Prefix.rows Cert.KernelIdeal.Prefix.wrapped Cert.KernelIdeal.Prefix.endpoint0
  rfl

/-- The reference's gathered destination rows are the prefix's plain gather at row 1 of the edge-index array. -/
theorem rows_dst (x0 : FVec Ideal Cert.KernelIdeal.S50000x128 .f32) (x5 : IVec Cert.KernelIdeal.S2x800000 32) :
    val_main_v17 (F := Ideal) x0 x5 = Cert.KernelIdeal.Prefix.rows x0 (Cert.KernelIdeal.Prefix.endpoint1 x5) := by
  unfold val_main_v17 val_main_v16 val_main_v15 val_main_v14 val_main_v13 val_main_v12 val_main_v11 val_main_v3 val_main_v2
    val_main_c_1 val_main_c_2 Cert.KernelIdeal.Prefix.rows Cert.KernelIdeal.Prefix.wrapped Cert.KernelIdeal.Prefix.endpoint1
  rfl

end Cert.GatherBridge

end
-- ==== Proof.lean ====
/-
  The certificate's proof: the kernel program and the reference compute the same edge mask.

  Both programs score each of the 800000 edges by a two-layer perceptron on the edge's two endpoint rows of the node
  table and squash the logit, shifted by a logistic noise term of the edge's uniform draw, through the logistic
  function. The reference concatenates the two rows and multiplies by the whole first layer; the kernel multiplies
  the source row by the layer's upper half and the destination row by its lower half and adds: a sum over 256 terms
  split in two. The kernel works on blocks of 3200 edges; the blocks tile the edge list.

  The programs gather the endpoint rows differently outside the table: the reference's indexing clamps an index
  outside `-50000 ≤ · < 50000` while the kernel program's gather fills the row with a fill value. The precondition
  keeps every edge index inside that range, where both wrap a negative index the same way and gather the same rows.

  The three frames are the generated ones (the reference's is its generated run with the result dropped); the
  idealization rewrote nothing, so `preserves` is trivial; `algebraic` puts the kernel program's result
  (`KernelIdeal.Result.run`) beside the reference's (its generated run, read as the specification by
  `ReferenceIdeal.RefValue.mask_eq`) at arguments that agree.
-/
import proofs.«405550_j89292370084347_1_alg».proof.Defs
import proofs.«405550_j89292370084347_1_alg».proof.Proof.Gen.Kernel
import proofs.«405550_j89292370084347_1_alg».proof.Proof.Gen.Kernel.Skeleton
import proofs.«405550_j89292370084347_1_alg».proof.Proof.Gen.Kernel.Launch
import proofs.«405550_j89292370084347_1_alg».proof.Proof.Gen.Kernel.Points
import proofs.«405550_j89292370084347_1_alg».proof.Proof.Gen.Kernel.Frame
import proofs.«405550_j89292370084347_1_alg».proof.Proof.Gen.KernelIdeal
import proofs.«405550_j89292370084347_1_alg».proof.Proof.Gen.KernelIdeal.Skeleton
import proofs.«405550_j89292370084347_1_alg».proof.Proof.Gen.KernelIdeal.Launch
import proofs.«405550_j89292370084347_1_alg».proof.Proof.Gen.KernelIdeal.Points
import proofs.«405550_j89292370084347_1_alg».proof.Proof.Gen.KernelIdeal.Frame
import proofs.«405550_j89292370084347_1_alg».proof.Proof.Gen.ReferenceIdeal
import proofs.«405550_j89292370084347_1_alg».proof.Proof.Gen.ReferenceIdeal.Run
import proofs.«405550_j89292370084347_1_alg».proof.Proof.Gen.ReferenceIdeal.Read
import proofs.«405550_j89292370084347_1_alg».proof.Proof.Gen.Pre_finite_inputs
import proofs.«405550_j89292370084347_1_alg».proof.Proof.IndexRange
import proofs.«405550_j89292370084347_1_alg».proof.Proof.KernelResult
import proofs.«405550_j89292370084347_1_alg».proof.Proof.ReferenceValue
import proofs.«405550_j89292370084347_1_alg».proof.Proof.GatherBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result and the reference's are the specification's mask array of the same gathered rows,
    parameters and draws. -/
theorem algebraic : Cert.algebraic_KernelIdeal_ReferenceIdeal := by
  intro m ρ m' ρ' hpre hagree
  have hr : ∀ c, Cert.KernelIdeal.Result.InRange m c := fun c => Cert.IndexRange.range_of_pre _ _ _ _ _ _ _ (hpre c)
  refine ⟨fun c => Cert.KernelIdeal.Result.value m c, Cert.KernelIdeal.Result.run m ρ hr, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v49_eq, Cert.ReferenceIdeal.RefValue.mask_eq, e0, e1, e2, e3, e4, e5, e6,
    Cert.GatherBridge.rows_src, Cert.GatherBridge.rows_dst]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
